-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000 : S_.BroadcastsInDim S800000 (![] : Fin 0 → Fin S800000.rank)
  reducesTo_S800000_S_d0 : S800000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S128x128 .f32) (main_arg7 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S50000x128 .f32) (main_arg1 : IVec S800000 32) (main_arg2 : IVec S800000 32) (main_arg3 : FVec F S800000 .f32) (main_arg4 : FVec F S128x128 .f32) (main_arg5 : FVec F S128 .f32) (main_arg6 : FVec F S128x128 .f32) (main_arg7 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000 .f32 := Host.absf main_arg3
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_v13 main_v16
-- ==== Kernel.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S_ : Shape := ⟨0, ![]⟩
abbrev S50000 : Shape := ⟨1, ![50000]⟩
abbrev S800000x1 : Shape := ⟨2, ![800000, 1]⟩
abbrev S800000x128 : Shape := ⟨2, ![800000, 128]⟩
abbrev S5000x128 : Shape := ⟨2, ![5000, 128]⟩
abbrev S1x128 : Shape := ⟨2, ![1, 128]⟩

abbrev nBuf : Space → Nat
  | .hbm => 55
  | .vmem => 8
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S800000, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S_, .f32⟩
  | .hbm, ⟨9, _⟩ => ⟨S800000, .f32⟩
  | .hbm, ⟨10, _⟩ => ⟨S_, .f32⟩
  | .hbm, ⟨11, _⟩ => ⟨S50000, .f32⟩
  | .hbm, ⟨12, _⟩ => ⟨S800000x1, .i32⟩
  | .hbm, ⟨13, _⟩ => ⟨S50000, .f32⟩
  | .hbm, ⟨14, _⟩ => ⟨S_, .f32⟩
  | .hbm, ⟨15, _⟩ => ⟨S50000, .f32⟩
  | .hbm, ⟨16, _⟩ => ⟨S50000, .f32⟩
  | .hbm, ⟨17, _⟩ => ⟨S_, .i32⟩
  | .hbm, ⟨18, _⟩ => ⟨S800000, .i32⟩
  | .hbm, ⟨19, _⟩ => ⟨S800000, .i1⟩
  | .hbm, ⟨20, _⟩ => ⟨S_, .i32⟩
  | .hbm, ⟨21, _⟩ => ⟨S800000, .i32⟩
  | .hbm, ⟨22, _⟩ => ⟨S800000, .i32⟩
  | .hbm, ⟨23, _⟩ => ⟨S800000, .i32⟩
  | .hbm, ⟨24, _⟩ => ⟨S800000x1, .i32⟩
  | .hbm, ⟨25, _⟩ => ⟨S800000, .f32⟩
  | .hbm, ⟨26, _⟩ => ⟨S_, .i32⟩
  | .hbm, ⟨27, _⟩ => ⟨S800000, .i32⟩
  | .hbm, ⟨28, _⟩ => ⟨S800000, .i1⟩
  | .hbm, ⟨29, _⟩ => ⟨S_, .i32⟩
  | .hbm, ⟨30, _⟩ => ⟨S800000, .i32⟩
  | .hbm, ⟨31, _⟩ => ⟨S800000, .i32⟩
  | .hbm, ⟨32, _⟩ => ⟨S800000, .i32⟩
  | .hbm, ⟨33, _⟩ => ⟨S800000x1, .i32⟩
  | .hbm, ⟨34, _⟩ => ⟨S800000, .f32⟩
  | .hbm, ⟨35, _⟩ => ⟨S800000, .f32⟩
  | .hbm, ⟨36, _⟩ => ⟨S800000, .f32⟩
  | .hbm, ⟨37, _⟩ => ⟨S800000, .f32⟩
  | .hbm, ⟨38, _⟩ => ⟨S_, .i32⟩
  | .hbm, ⟨39, _⟩ => ⟨S800000, .i32⟩
  | .hbm, ⟨40, _⟩ => ⟨S800000, .i1⟩
  | .hbm, ⟨41, _⟩ => ⟨S_, .i32⟩
  | .hbm, ⟨42, _⟩ => ⟨S800000, .i32⟩
  | .hbm, ⟨43, _⟩ => ⟨S800000, .i32⟩
  | .hbm, ⟨44, _⟩ => ⟨S800000, .i32⟩
  | .hbm, ⟨45, _⟩ => ⟨S800000x1, .i32⟩
  | .hbm, ⟨46, _⟩ => ⟨S800000x128, .f32⟩
  | .hbm, ⟨47, _⟩ => ⟨S800000x1, .f32⟩
  | .hbm, ⟨48, _⟩ => ⟨S800000x128, .f32⟩
  | .hbm, ⟨49, _⟩ => ⟨S800000x128, .f32⟩
  | .hbm, ⟨50, _⟩ => ⟨S_, .f32⟩
  | .hbm, ⟨51, _⟩ => ⟨S50000x128, .f32⟩
  | .hbm, ⟨52, _⟩ => ⟨S800000x1, .i32⟩
  | .hbm, ⟨53, _⟩ => ⟨S50000x128, .f32⟩
  | .hbm, ⟨54, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S128, .f32⟩
  | .local _ .vmem, ⟨4, _⟩ => ⟨S128x128, .f32⟩
  | .local _ .vmem, ⟨5, _⟩ => ⟨S128, .f32⟩
  | .local _ .vmem, ⟨6, _⟩ => ⟨S5000x128, .f32⟩
  | .local _ .vmem, ⟨7, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst_1 : Ref sig .tc := ⟨.hbm, 14, rfl⟩
abbrev main_v4 : Ref sig .tc := ⟨.hbm, 15, rfl⟩
abbrev main_v5 : Ref sig .tc := ⟨.hbm, 16, rfl⟩
abbrev main_c : Ref sig .tc := ⟨.hbm, 17, rfl⟩
abbrev main_v6 : Ref sig .tc := ⟨.hbm, 18, rfl⟩
abbrev main_v7 : Ref sig .tc := ⟨.hbm, 19, rfl⟩
abbrev main_c_2 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_c_3 : Ref sig .tc := ⟨.hbm, 26, rfl⟩
abbrev main_v13 : Ref sig .tc := ⟨.hbm, 27, rfl⟩
abbrev main_v14 : Ref sig .tc := ⟨.hbm, 28, rfl⟩
abbrev main_c_4 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_c_5 : Ref sig .tc := ⟨.hbm, 38, rfl⟩
abbrev main_v23 : Ref sig .tc := ⟨.hbm, 39, rfl⟩
abbrev main_v24 : Ref sig .tc := ⟨.hbm, 40, rfl⟩
abbrev main_c_6 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v35) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg7) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v36) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S_ : Shape := ⟨0, ![]⟩
abbrev S50000 : Shape := ⟨1, ![50000]⟩
abbrev S800000x1 : Shape := ⟨2, ![800000, 1]⟩
abbrev S800000x128 : Shape := ⟨2, ![800000, 128]⟩
abbrev S1x128 : Shape := ⟨2, ![1, 128]⟩

abbrev nBuf : Space → Nat
  | .hbm => 65
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S800000, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S_, .f32⟩
  | .hbm, ⟨9, _⟩ => ⟨S800000, .f32⟩
  | .hbm, ⟨10, _⟩ => ⟨S_, .f32⟩
  | .hbm, ⟨11, _⟩ => ⟨S50000, .f32⟩
  | .hbm, ⟨12, _⟩ => ⟨S800000x1, .i32⟩
  | .hbm, ⟨13, _⟩ => ⟨S50000, .f32⟩
  | .hbm, ⟨14, _⟩ => ⟨S_, .f32⟩
  | .hbm, ⟨15, _⟩ => ⟨S50000, .f32⟩
  | .hbm, ⟨16, _⟩ => ⟨S50000, .f32⟩
  | .hbm, ⟨17, _⟩ => ⟨S_, .i32⟩
  | .hbm, ⟨18, _⟩ => ⟨S800000, .i32⟩
  | .hbm, ⟨19, _⟩ => ⟨S800000, .i1⟩
  | .hbm, ⟨20, _⟩ => ⟨S_, .i32⟩
  | .hbm, ⟨21, _⟩ => ⟨S800000, .i32⟩
  | .hbm, ⟨22, _⟩ => ⟨S800000, .i32⟩
  | .hbm, ⟨23, _⟩ => ⟨S800000, .i32⟩
  | .hbm, ⟨24, _⟩ => ⟨S800000x1, .i32⟩
  | .hbm, ⟨25, _⟩ => ⟨S800000, .f32⟩
  | .hbm, ⟨26, _⟩ => ⟨S_, .i32⟩
  | .hbm, ⟨27, _⟩ => ⟨S800000, .i32⟩
  | .hbm, ⟨28, _⟩ => ⟨S800000, .i1⟩
  | .hbm, ⟨29, _⟩ => ⟨S_, .i32⟩
  | .hbm, ⟨30, _⟩ => ⟨S800000, .i32⟩
  | .hbm, ⟨31, _⟩ => ⟨S800000, .i32⟩
  | .hbm, ⟨32, _⟩ => ⟨S800000, .i32⟩
  | .hbm, ⟨33, _⟩ => ⟨S800000x1, .i32⟩
  | .hbm, ⟨34, _⟩ => ⟨S800000, .f32⟩
  | .hbm, ⟨35, _⟩ => ⟨S800000, .f32⟩
  | .hbm, ⟨36, _⟩ => ⟨S800000, .f32⟩
  | .hbm, ⟨37, _⟩ => ⟨S800000, .f32⟩
  | .hbm, ⟨38, _⟩ => ⟨S_, .i32⟩
  | .hbm, ⟨39, _⟩ => ⟨S800000, .i32⟩
  | .hbm, ⟨40, _⟩ => ⟨S800000, .i1⟩
  | .hbm, ⟨41, _⟩ => ⟨S_, .i32⟩
  | .hbm, ⟨42, _⟩ => ⟨S800000, .i32⟩
  | .hbm, ⟨43, _⟩ => ⟨S800000, .i32⟩
  | .hbm, ⟨44, _⟩ => ⟨S800000, .i32⟩
  | .hbm, ⟨45, _⟩ => ⟨S800000x1, .i32⟩
  | .hbm, ⟨46, _⟩ => ⟨S800000x128, .f32⟩
  | .hbm, ⟨47, _⟩ => ⟨S800000x1, .f32⟩
  | .hbm, ⟨48, _⟩ => ⟨S800000x128, .f32⟩
  | .hbm, ⟨49, _⟩ => ⟨S800000x128, .f32⟩
  | .hbm, ⟨50, _⟩ => ⟨S_, .f32⟩
  | .hbm, ⟨51, _⟩ => ⟨S50000x128, .f32⟩
  | .hbm, ⟨52, _⟩ => ⟨S800000x1, .i32⟩
  | .hbm, ⟨53, _⟩ => ⟨S50000x128, .f32⟩
  | .hbm, ⟨54, _⟩ => ⟨S50000x128, .f32⟩
  | .hbm, ⟨55, _⟩ => ⟨S1x128, .f32⟩
  | .hbm, ⟨56, _⟩ => ⟨S50000x128, .f32⟩
  | .hbm, ⟨57, _⟩ => ⟨S50000x128, .f32⟩
  | .hbm, ⟨58, _⟩ => ⟨S_, .f32⟩
  | .hbm, ⟨59, _⟩ => ⟨S50000x128, .f32⟩
  | .hbm, ⟨60, _⟩ => ⟨S50000x128, .f32⟩
  | .hbm, ⟨61, _⟩ => ⟨S50000x128, .f32⟩
  | .hbm, ⟨62, _⟩ => ⟨S1x128, .f32⟩
  | .hbm, ⟨63, _⟩ => ⟨S50000x128, .f32⟩
  | .hbm, ⟨64, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst_1 : Ref sig .tc := ⟨.hbm, 14, rfl⟩
abbrev main_v4 : Ref sig .tc := ⟨.hbm, 15, rfl⟩
abbrev main_v5 : Ref sig .tc := ⟨.hbm, 16, rfl⟩
abbrev main_c : Ref sig .tc := ⟨.hbm, 17, rfl⟩
abbrev main_v6 : Ref sig .tc := ⟨.hbm, 18, rfl⟩
abbrev main_v7 : Ref sig .tc := ⟨.hbm, 19, rfl⟩
abbrev main_c_2 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_c_3 : Ref sig .tc := ⟨.hbm, 26, rfl⟩
abbrev main_v13 : Ref sig .tc := ⟨.hbm, 27, rfl⟩
abbrev main_v14 : Ref sig .tc := ⟨.hbm, 28, rfl⟩
abbrev main_c_4 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_c_5 : Ref sig .tc := ⟨.hbm, 38, rfl⟩
abbrev main_v23 : Ref sig .tc := ⟨.hbm, 39, rfl⟩
abbrev main_v24 : Ref sig .tc := ⟨.hbm, 40, rfl⟩
abbrev main_c_6 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_call0_cst : Ref sig .tc := ⟨.hbm, 58, rfl⟩
abbrev main_call0_v0 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.Spec.lean ====
/-
  The function both programs compute after the shared message-passing stage: a two-layer perceptron applied to every
  row of the aggregated node features.  For a row `a` of 128 features, weights `W₁, W₂ : 128 × 128` and biases
  `b₁, b₂ : 128`,

      hidden a k = max (∑ k', a k' · W₁ k' k + b₁ k) 0          (first layer, then the rectifier)
      rowOut a j = ∑ k, hidden a k · W₂ k j + b₂ j               (second layer)

  and the whole result is `rowOut` of each row: row `r` of the output depends on row `r` of the input only, which is
  why cutting the rows into tiles changes nothing.  Everything is over the extended reals; no law beyond the
  definitions is used, so nothing here needs finiteness.
-/
import Idealize.ShloMosaic.PureOps.Ideal
import Idealize.ShloMosaic.Lib.ValueIdx

noncomputable section

namespace Cert.Ffn

open Idealize.ShloMosaic Idealize.ShloMosaic.ValueIdx

/-- The weight matrices' and the bias vectors' shapes, and the aggregated features'. -/
abbrev SW : Shape := ⟨2, ![128, 128]⟩
abbrev SB : Shape := ⟨1, ![128]⟩
abbrev SA : Shape := ⟨2, ![50000, 128]⟩

/-- First layer at hidden unit `k`: the row against column `k` of `W₁`, plus the bias, rectified. -/
def hidden (row : Fin 128 → EReal) (w1 : SW.Idx → EReal) (b1 : SB.Idx → EReal) (k : Fin 128) : EReal :=
  max ((∑ k' : Fin 128, row k' * w1 (ix2 k' k)) + b1 (ix1 k)) 0

/-- Second layer at output unit `j`: the hidden row against column `j` of `W₂`, plus the bias. -/
def rowOut (row : Fin 128 → EReal) (w1 : SW.Idx → EReal) (b1 : SB.Idx → EReal) (w2 : SW.Idx → EReal) (b2 : SB.Idx → EReal)
    (j : Fin 128) : EReal :=
  (∑ k : Fin 128, hidden row w1 b1 k * w2 (ix2 k j)) + b2 (ix1 j)

/-- The network on all 50000 rows: entry `(r, j)` is `rowOut` of row `r` at `j`. -/
def ffn (a : SA.Idx → EReal) (w1 : SW.Idx → EReal) (b1 : SB.Idx → EReal) (w2 : SW.Idx → EReal) (b2 : SB.Idx → EReal) :
    SA.Idx → EReal :=
  fun i => rowOut (fun k => a (ix2 (i 0) k)) w1 b1 w2 b2 (i 1)

theorem ffn_apply (a : SA.Idx → EReal) (w1 : SW.Idx → EReal) (b1 : SB.Idx → EReal) (w2 : SW.Idx → EReal) (b2 : SB.Idx → EReal)
    (r : Fin 50000) (j : Fin 128) :
    ffn a w1 b1 w2 b2 (ix2 r j) = rowOut (fun k => a (ix2 r k)) w1 b1 w2 b2 j := rfl

/-- `rowOut` of equal rows, weights and biases. -/
theorem rowOut_congr {row row' : Fin 128 → EReal} {w1 w1' : SW.Idx → EReal} {b1 b1' : SB.Idx → EReal}
    {w2 w2' : SW.Idx → EReal} {b2 b2' : SB.Idx → EReal} (hr : row = row') (h1 : w1 = w1') (h2 : b1 = b1') (h3 : w2 = w2')
    (h4 : b2 = b2') (j : Fin 128) : rowOut row w1 b1 w2 b2 j = rowOut row' w1' b1' w2' b2' j := by
  subst hr h1 h2 h3 h4; rfl

/-- `ffn` of equal features, weights and biases. -/
theorem ffn_congr {a a' : SA.Idx → EReal} {w1 w1' : SW.Idx → EReal} {b1 b1' : SB.Idx → EReal}
    {w2 w2' : SW.Idx → EReal} {b2 b2' : SB.Idx → EReal} (ha : a = a') (h1 : w1 = w1') (h2 : b1 = b1') (h3 : w2 = w2')
    (h4 : b2 = b2') : ffn a w1 b1 w2 b2 = ffn a' w1' b1' w2' b2' := by
  subst ha h1 h2 h3 h4; rfl

end Cert.Ffn

end
-- ==== Proof.Payload.lean ====
/-
  The kernel body's arithmetic at one entry of its tile.  The body loads a tile of 5000 rows of aggregated features, both
  weight matrices and both biases, and stores  (max (tile · W₁ + b₁) 0) · W₂ + b₂ .  At the ideal values the changes of
  float format are the identity and a matrix product into a zero accumulator is the plain sum over the contracted
  index, so entry `(p, q)` of what is stored is `Ffn.rowOut` of row `p` of the tile at `q`: the biases, given as
  vectors, are first viewed as one row and then repeated down the 5000 rows, which reads the bias at the column.
-/
import proofs.«105119_j59390807769620_1_alg».proof.Proof.Gen.KernelIdeal.Skeleton
import proofs.«105119_j59390807769620_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Body

open Cert.KernelIdeal Cert.KernelIdeal.Gen Idealize.ShloMosaic Idealize.ShloMosaic.TcCoe
open Idealize.ShloMosaic.ValueIdx

/-! ## The tile's matrix product: which operand entries meet at contraction index `k` -/

theorem lhs_axis0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_axis1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_axis0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_axis1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A tile times a weight matrix into the zero accumulator, at `(p, q)`: row `p` of the tile against column `q`. -/
theorem matmul_at {φ₁ φ₂ : FTy} (l : FVec Ideal S5000x128 φ₁) (r : FVec Ideal S128x128 φ₂) (p : Fin 5000) (q : Fin 128) :
    matmul dot_S5000x128_S128x128_S5000x128_1_0_0_1_n_n none l r (constant S5000x128 .f32 0x00000000#32) (ix2 p q)
      = ∑ k : Fin 128, l (ix2 p k) * r (ix2 k q) := by
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact lhs_axis0 _ _
    | ⟨1, _⟩ => exact (lhs_axis1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (rhs_axis0 _ _).trans hk
    | ⟨1, _⟩ => exact rhs_axis1 _ _)
  rw [el, er]

/-- A bias vector viewed as one row and repeated down the tile's rows reads, at `(p, q)`, the bias at `q`. -/
theorem bias_at (b : FVec Ideal S128 .f32) (p : Fin 5000) (q : Fin 128) :
    broadcastTo S5000x128 (shapeCast S1x128 b shapeCasts_S128_S1x128) broadcasts_S1x128_S5000x128 (ix2 p q) = b (ix1 q) := by
  rw [broadcastTo_1b_ab_apply, shapeCast_a_1a_apply]

/-- THE PAYLOAD AT AN ENTRY: what the body stores at `(p, q)` of its tile is the two-layer network on row `p`. -/
theorem pay_apply (x0 : Vec Ideal S5000x128 .f32) (x1 : Vec Ideal S128x128 .f32) (x2 : Vec Ideal S128 .f32)
    (x3 : Vec Ideal S128x128 .f32) (x4 : Vec Ideal S128 .f32) (p : Fin 5000) (q : Fin 128) :
    k0_pay1 (F := Ideal) x0 x1 x2 x3 x4 (ix2 p q) = Cert.Ffn.rowOut (fun k => x0 (ix2 p k)) x1 x2 x3 x4 q := by
  unfold k0_pay1 Cert.Ffn.rowOut Cert.Ffn.hidden
  rw [addf_apply, matmul_at, bias_at]
  simp only [truncf_apply, maximumf_apply, addf_apply, matmul_at, bias_at, broadcast_apply, shapeCast_self,
    Ideal.ofBits_def, Ideal.ofBits_zero_f32]

end Cert.KernelIdeal.Body

end
-- ==== Proof.Blocks.lean ====
/-
  Each window's block at a grid point, read off its array.  Point `t` of the ten is handed rows
  `5000·t … 5000·t + 4999` of the aggregated features (all 128 columns) and the two weight matrices and the two biases
  whole.  With the payload lemma: what the body stores at `(p, q)` of its tile is the network's output on row
  `5000·t + p` of the aggregated features, at column `q`.  The arrays are always named as the region finds them
  (`V`), never opened: the aggregated features are the result of the 46 host operations before the region.
-/
import proofs.«105119_j59390807769620_1_alg».proof.Proof.Gen.KernelIdeal.Frame
import proofs.«105119_j59390807769620_1_alg».proof.Proof.Payload
import Idealize.ShloMosaic.Lib.Pipeline.Value
import Idealize.ShloMosaic.Lib.Tactic

noncomputable section

namespace Cert.KernelIdeal.Blocks

open Cert.KernelIdeal Cert.KernelIdeal.Gen Idealize.ShloMosaic Idealize.ShloMosaic.TcCoe Idealize.SL.Sem
open Idealize.ShloMosaic.Pipeline (Dat)
open Idealize.ShloMosaic.ValueIdx

variable (m : (ℓ : Loc nD τ sig) → Buf (Elt Ideal) ℓ) (ρ : Dev nD → PrngReg)

theorem hz2 : (![0, 0] : Fin 2 → Nat) = fun _ => 0 := funext fun a => by fin_cases a <;> rfl
theorem hz1 : (![0] : Fin 1 → Nat) = fun _ => 0 := funext fun a => by fin_cases a <;> rfl

/-- What the result array ends holding: the network on every row of the aggregated features, over the arrays as the
    region finds them. -/
def result (c : Dev nD) : S50000x128.Idx → EReal :=
  Cert.Ffn.ffn (V m c main_v35) (V m c main_arg4) (V m c main_arg5) (V m c main_arg6) (V m c main_arg7)

theorem result_apply (c : Dev nD) (r : Fin 50000) (q : Fin 128) :
    result m c (ix2 r q) = Cert.Ffn.rowOut (fun k => (V m c main_v35 : S50000x128.Idx → EReal) (ix2 r k))
      (V m c main_arg4) (V m c main_arg5) (V m c main_arg6) (V m c main_arg7) q := rfl

/-! ## The index maps over the grid -/

/-- Decided over the ten points: the feature window and the result window sit at block row `t`, column block 0; the
    weights' and biases' windows never move. -/
theorem idx_facts : ∀ t : Fin cfg0.N,
    win0_0.index t (0 : Fin 2) = t.val ∧ win0_0.index t (1 : Fin 2) = 0
    ∧ win0_5.index t (0 : Fin 2) = t.val ∧ win0_5.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0 :=
  (by decide +kernel : ∀ t : Fin grid0.N, _)

/-! ## Each window's block at a point, read off its array -/

/-- Entry `(p, k)` of the feature tile at point `t` is entry `(5000·t + p, k)` of the aggregated features. -/
theorem tile_apply (c : Dev nD) (t : Fin cfg0.N) (p : Fin 5000) (k : Fin 128) (R : Fin 50000)
    (hR : R.val = 5000 * t.val + p.val) :
    (iblk m c 0 t : S5000x128.Idx → EReal) (ix2 p k) = (V m c main_v35 : S50000x128.Idx → EReal) (ix2 R k) := by
  obtain ⟨e0, e1, -⟩ := idx_facts t
  unfold iblk
  rw [View.read_apply, cast_eq]
  refine congrArg (V m c main_v35 : S50000x128.Idx → EReal) (funext fun a => Fin.ext ?_)
  match a with
  | ⟨0, _⟩ => show win0_0.index t (0 : Fin 2) * 5000 + 1 * p.val = R.val; rw [e0, hR]; omega
  | ⟨1, _⟩ => show win0_0.index t (1 : Fin 2) * 128 + 1 * k.val = k.val; rw [e1]; omega

/-! The weights' and the biases' blocks are their whole arrays, at every point. -/

theorem w1_blk (c : Dev nD) (t : Fin cfg0.N) : (iblk m c 1 t : S128x128.Idx → EReal) = V m c main_arg4 := by
  obtain ⟨-, -, -, -, e0, e1, -⟩ := idx_facts t
  funext y
  unfold iblk
  rw [View.read_apply, cast_eq]
  refine congrArg (V m c main_arg4 : S128x128.Idx → EReal) (funext fun a => Fin.ext ?_)
  match a with
  | ⟨0, _⟩ => show win0_1.index t (0 : Fin 2) * 128 + 1 * (y 0).val = (y 0).val; rw [e0]; omega
  | ⟨1, _⟩ => show win0_1.index t (1 : Fin 2) * 128 + 1 * (y 1).val = (y 1).val; rw [e1]; omega

theorem b1_blk (c : Dev nD) (t : Fin cfg0.N) : (iblk m c 2 t : S128.Idx → EReal) = V m c main_arg5 := by
  obtain ⟨-, -, -, -, -, -, e0, -⟩ := idx_facts t
  funext y
  unfold iblk
  rw [View.read_apply, cast_eq]
  refine congrArg (V m c main_arg5 : S128.Idx → EReal) (funext fun a => Fin.ext ?_)
  match a with
  | ⟨0, _⟩ => show win0_2.index t (0 : Fin 1) * 128 + 1 * (y 0).val = (y 0).val; rw [e0]; omega

theorem w2_blk (c : Dev nD) (t : Fin cfg0.N) : (iblk m c 3 t : S128x128.Idx → EReal) = V m c main_arg6 := by
  obtain ⟨-, -, -, -, -, -, -, e0, e1, -⟩ := idx_facts t
  funext y
  unfold iblk
  rw [View.read_apply, cast_eq]
  refine congrArg (V m c main_arg6 : S128x128.Idx → EReal) (funext fun a => Fin.ext ?_)
  match a with
  | ⟨0, _⟩ => show win0_3.index t (0 : Fin 2) * 128 + 1 * (y 0).val = (y 0).val; rw [e0]; omega
  | ⟨1, _⟩ => show win0_3.index t (1 : Fin 2) * 128 + 1 * (y 1).val = (y 1).val; rw [e1]; omega

theorem b2_blk (c : Dev nD) (t : Fin cfg0.N) : (iblk m c 4 t : S128.Idx → EReal) = V m c main_arg7 := by
  obtain ⟨-, -, -, -, -, -, -, -, -, e0⟩ := idx_facts t
  funext y
  unfold iblk
  rw [View.read_apply, cast_eq]
  refine congrArg (V m c main_arg7 : S128.Idx → EReal) (funext fun a => Fin.ext ?_)
  match a with
  | ⟨0, _⟩ => show win0_4.index t (0 : Fin 1) * 128 + 1 * (y 0).val = (y 0).val; rw [e0]; omega

/-! ## What the body stores at a point -/

/-- Entry `(p, q)` of what the body stores at point `t` is the result at `(5000·t + p, q)`. -/
theorem stored_apply (c : Dev nD) (t : Fin cfg0.N) (p : Fin 5000) (q : Fin 128) (R : Fin 50000)
    (hR : R.val = 5000 * t.val + p.val) :
    k0_pay1 (F := Ideal) (iblk m c 0 t) (iblk m c 1 t) (iblk m c 2 t) (iblk m c 3 t) (iblk m c 4 t) (ix2 p q)
      = result m c (ix2 R q) :=
  (Cert.KernelIdeal.Body.pay_apply (iblk m c 0 t) (iblk m c 1 t) (iblk m c 2 t) (iblk m c 3 t) (iblk m c 4 t) p q).trans
    ((Cert.Ffn.rowOut_congr (funext fun k => tile_apply m c t p k R hR) (w1_blk m c t) (b1_blk m c t) (w2_blk m c t)
      (b2_blk m c t) q).trans (result_apply m c R q).symm)

/-- The same at any index `y` of the tile and any index `i` of the array whose row is `5000·t` plus `y`'s and whose
    column is `y`'s. -/
theorem stored_read (c : Dev nD) (t : Fin cfg0.N) (y : S5000x128.Idx) (i : S50000x128.Idx)
    (h0 : (i 0).val = 5000 * t.val + (y 0).val) (h1 : (i 1).val = (y 1).val) :
    k0_pay1 (F := Ideal) (iblk m c 0 t) (iblk m c 1 t) (iblk m c 2 t) (iblk m c 3 t) (iblk m c 4 t) y = result m c i := by
  obtain ⟨p, q, rfl⟩ : ∃ (p : Fin 5000) (q : Fin 128), y = ix2 p q := ⟨y 0, y 1, eq_ix2 y⟩
  obtain ⟨R, j, rfl⟩ : ∃ (R : Fin 50000) (j : Fin 128), i = ix2 R j := ⟨i 0, i 1, eq_ix2 i⟩
  obtain rfl : j = q := Fin.ext h1
  exact stored_apply m c t p j R h0

end Cert.KernelIdeal.Blocks

end
-- ==== Proof.Tiles.lean ====
/-
  From tiles to the whole array.  Point `t` writes back rows `5000·t … 5000·t + 4999` of the result, and what it writes is
  tile `t` of `Blocks.result`, the network applied to every row of the aggregated features as the region finds them.
  The ten tiles cover the 50000 rows (row `r` lies in tile `r / 5000`), hence after the run the result array is
  `Blocks.result`.
-/
import proofs.«105119_j59390807769620_1_alg».proof.Proof.Gen.KernelIdeal.Value
import proofs.«105119_j59390807769620_1_alg».proof.Proof.Blocks
import Idealize.ShloMosaic.Lib.Pipeline.Value
import Idealize.ShloMosaic.Lib.Tactic

noncomputable section

namespace Cert.KernelIdeal.Tiles

open Cert.KernelIdeal Cert.KernelIdeal.Gen Cert.KernelIdeal.Blocks Idealize.ShloMosaic Idealize.ShloMosaic.TcCoe Idealize.SL.Sem
open Idealize.ShloMosaic.Pipeline (Dat)
open Idealize.ShloMosaic.ValueIdx

variable (m : (ℓ : Loc nD τ sig) → Buf (Elt Ideal) ℓ) (ρ : Dev nD → PrngReg)

/-- WHAT POINT `t` WRITES BACK is tile `t` of `result`. -/
theorem flushed_eq (c : Dev nD) (t : Fin cfg0.N) :
    (dats m 0 c).flushed 5 t = ((cfg0.win 5).blk t).view.read (Elt Ideal) (result m c) := by
  rw [Cert.KernelIdeal.Value.flushed5]
  unfold out0_5
  rw [View.canon_unit_zero hz2]
  simp only [View.ld_unit_zero (S := S5000x128) hz2, View.ld_unit_zero (S := S128x128) hz2, View.ld_unit_zero (S := S128) hz1]
  obtain ⟨-, -, e0, e1, -⟩ := idx_facts t
  funext y
  -- the tile read off `result` at `y` is `result` at `y`'s place in the array
  rw [View.read_apply, cast_eq]
  refine stored_read m c t y (((cfg0.win 5).blk t).view.emb y) ?_ ?_
  · show win0_5.index t (0 : Fin 2) * 5000 + 1 * (y 0).val = 5000 * t.val + (y 0).val
    rw [e0]; omega
  · show win0_5.index t (1 : Fin 2) * 128 + 1 * (y 1).val = (y 1).val
    rw [e1]; omega

/-! ## The tiles cover the array -/

/-- An index of the result array is in point `t`'s tile iff each coordinate is in the tile's range on its axis. -/
theorem mem_blk (t : Fin cfg0.N) (i : S50000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v36).slice (win0_5.rect t)).set ↔ _
  rw [View.set_slice_whole, Rect.mem_set_unit]
  exact Iff.rfl

/-- Row `r` lies in tile `r / 5000`. -/
theorem cover (i : S50000x128.Idx) : ∃ t : Fin cfg0.N, (cfg0.win 5).flush t = true ∧ i ∈ ((cfg0.win 5).blk t).view.set := by
  have hi0 : (i 0).val < 50000 := (i 0).isLt
  have hi1 : (i 1).val < 128 := (i 1).isLt
  have hN : cfg0.N = 10 := N_0
  obtain ⟨t, ht⟩ : ∃ t : Fin cfg0.N, t.val = (i 0).val / 5000 := ⟨⟨(i 0).val / 5000, by rw [hN]; omega⟩, rfl⟩
  obtain ⟨-, -, e0, e1, -⟩ := idx_facts t
  refine ⟨t, flush0_5 t, ?_⟩
  rw [mem_blk]
  intro a
  match a with
  | ⟨0, _⟩ => show win0_5.index t (0 : Fin 2) * 5000 ≤ (i 0).val ∧ (i 0).val < win0_5.index t (0 : Fin 2) * 5000 + 5000; rw [e0, ht]; omega
  | ⟨1, _⟩ => show win0_5.index t (1 : Fin 2) * 128 ≤ (i 1).val ∧ (i 1).val < win0_5.index t (1 : Fin 2) * 128 + 128; rw [e1]; omega

/-- THE RESULT ARRAY after the run is the network on the arrays as the region finds them. -/
theorem final (c : Dev nD) : (dats m 0 c).arrAt 5 cfg0.N = result m c :=
  (dats m 0 c).arrAt_eq_of_cover 5 (result m c) (fun t _ => flushed_eq m c t) cover

/-- The run, read: the result array at `result`, the arguments unchanged. -/
theorem run : θ_run defs (onTc (τ := τ) (main (F := Ideal))) ⟨m, fun _ => 0, ρ⟩ fun r => ∀ c : Dev nD,
      r.2.mem ((c : Thread nD τ).loc main_v36) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩)
    (Cert.KernelIdeal.Value.run_blocks m ρ)

end Cert.KernelIdeal.Tiles

end
-- ==== Proof.Head.lean ====
/-
  The shared message-passing stage.  Before the region the kernel's program runs, operation for operation and
  literal for literal, the reference's own first 46 host operations: out-degrees by a scatter-add of ones over the
  source list, clamped below by one; the per-edge coefficient rsqrt(deg[src] · deg[dst]) · weight; the gathered source
  rows scaled by it; the scatter-add over the destination list.  So the array the region finds in the aggregated-features
  buffer is the reference's stage `val_main_v35` of the same four arguments.  Nothing is computed here: both sides are
  the same composition of the same host functions, and the equation holds by unfolding the stage's definitions, never the
  functions themselves.
-/
import proofs.«105119_j59390807769620_1_alg».proof.Proof.Gen.KernelIdeal.Frame
import proofs.«105119_j59390807769620_1_alg».proof.Proof.Gen.ReferenceIdeal.Read
import Idealize.ShloMosaic.Lib.StableHlo.Run

noncomputable section

namespace Cert.KernelIdeal.Head

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ)

set_option maxRecDepth 8192 in
set_option maxHeartbeats 2000000 in
/-- What the region finds in the aggregated-features buffer is the reference's aggregation stage of the launch
    contents of the node features, the two edge lists and the edge weights. -/
theorem agg_eq (c : Dev nD) :
    (V m c main_v35 : S50000x128.Idx → EReal)
      = Cert.ReferenceIdeal.Read.val_main_v35 (F := Ideal) (m ((c : Thread nD τ).loc main_arg0))
          (m ((c : Thread nD τ).loc main_arg1)) (m ((c : Thread nD τ).loc main_arg2)) (m ((c : Thread nD τ).loc main_arg3)) := by
  dsimp only [V, hostOps0]
  after_results_simp
  rfl

end Cert.KernelIdeal.Head

end
-- ==== Proof.RefValue.lean ====
/-
  The reference, read at an index.  After the message-passing stage (whose result is the generated stage
  `val_main_v35`: the aggregated features as a function of the node features, the edge lists and the edge weights) the
  reference multiplies by `W₁` with one contraction over the 128 features, adds the bias broadcast along the rows, takes the
  maximum with a zero array, multiplies by `W₂` and adds the second bias.  Read entry by entry that is `Ffn.ffn` of the
  aggregated features: each contraction is the plain sum over `k`, each broadcast reads the bias at the column.
-/
import proofs.«105119_j59390807769620_1_alg».proof.Proof.Gen.ReferenceIdeal.Read
import proofs.«105119_j59390807769620_1_alg».proof.Proof.Spec

noncomputable section

namespace Cert.ReferenceIdeal.RefValue

open Cert.ReferenceIdeal Cert.ReferenceIdeal.Gen Cert.ReferenceIdeal.Read Idealize.ShloMosaic Idealize.ShloMosaic.TcCoe
open Idealize.ShloMosaic.ValueIdx

/-! The composed index maps of the stages, at explicit coordinates. -/

theorem lhs_second (r : Fin 50000) (j k : Fin 128) : lidx_main_v41 (ix2 r j) k = ix2 r k :=
  funext fun a => Fin.ext (by match a with | ⟨0, _⟩ => rfl | ⟨1, _⟩ => rfl)
theorem rhs_second (r : Fin 50000) (j k : Fin 128) : ridx_main_v41 (ix2 r j) k = ix2 k j :=
  funext fun a => Fin.ext (by match a with | ⟨0, _⟩ => rfl | ⟨1, _⟩ => rfl)
theorem lhs_first (r : Fin 50000) (k k' : Fin 128) : lidx_main_v36 (ix2 r k) k' = ix2 r k' :=
  funext fun a => Fin.ext (by match a with | ⟨0, _⟩ => rfl | ⟨1, _⟩ => rfl)
theorem rhs_first (r : Fin 50000) (k k' : Fin 128) : ridx_main_v36 (ix2 r k) k' = ix2 k' k :=
  funext fun a => Fin.ext (by match a with | ⟨0, _⟩ => rfl | ⟨1, _⟩ => rfl)
theorem bias_first (r : Fin 50000) (k : Fin 128) : idx_main_v37 (idx_main_v38 (ix2 r k)) = ix1 k :=
  funext fun a => Fin.ext (by match a with | ⟨0, _⟩ => rfl)
theorem bias_second (r : Fin 50000) (j : Fin 128) : idx_main_v42 (idx_main_v43 (ix2 r j)) = ix1 j :=
  funext fun a => Fin.ext (by match a with | ⟨0, _⟩ => rfl)

/-- The reference's last stage is the network applied to its aggregated features. -/
theorem result_eq (x0 : (⟨S50000x128, .f32⟩ : BufTy).Contents (Elt Ideal)) (x1 x2 : (⟨S800000, .i32⟩ : BufTy).Contents (Elt Ideal))
    (x3 : (⟨S800000, .f32⟩ : BufTy).Contents (Elt Ideal)) (x4 : (⟨S128x128, .f32⟩ : BufTy).Contents (Elt Ideal))
    (x5 : (⟨S128, .f32⟩ : BufTy).Contents (Elt Ideal)) (x6 : (⟨S128x128, .f32⟩ : BufTy).Contents (Elt Ideal))
    (x7 : (⟨S128, .f32⟩ : BufTy).Contents (Elt Ideal)) :
    val_main_v44 (F := Ideal) x0 x1 x2 x3 x4 x5 x6 x7
      = Cert.Ffn.ffn (val_main_v35 (F := Ideal) x0 x1 x2 x3) x4 x5 x6 x7 := by
  funext i
  obtain ⟨r, j, rfl⟩ : ∃ (r : Fin 50000) (j : Fin 128), i = ix2 r j := ⟨i 0, i 1, eq_ix2 i⟩
  rw [Cert.Ffn.ffn_apply, val_main_v44_apply, val_main_v41_apply, val_main_v43_apply, val_main_v42_apply, bias_second]
  unfold Cert.Ffn.rowOut Cert.Ffn.hidden
  -- the outer sum term by term: the hidden unit on the left of each product, the weight on its right
  refine congrArg₂ _ (Finset.sum_congr rfl fun k _ => congrArg₂ _ ?_ ?_) rfl
  · rw [lhs_second, val_main_v40_apply, val_main_v39_apply, val_main_v36_apply, val_main_v38_apply, val_main_v37_apply,
      bias_first, val_main_call0_v0_apply, val_main_call0_cst_apply]
    simp only [lhs_first, rhs_first]
    -- the rectifier's zero array holds the zero word, which is the real number zero
    show max (_ + _) (Ideal.ofBits .f32 0x00000000#32) = _
    rw [Ideal.ofBits_zero_f32]
  · rw [rhs_second]

end Cert.ReferenceIdeal.RefValue

end
-- ==== Proof.Claims.lean ====
/-
  The five claims.  Both programs first run the same message-passing stage on the host; the kernel then applies the
  two-layer network tile by tile, the reference applies it to the whole array at once.  At the ideal values the kernel's
  result array is `Ffn.ffn` of the arrays the region finds (Tiles), the aggregated features among them being the
  reference's own aggregation stage of the launch contents (Head) and the weights and biases the launch contents
  themselves; the reference's result is `Ffn.ffn` of the same (RefValue).  So from memories that agree on the arguments the
  two results are one array.  No algebraic law is used beyond the definitions, so the precondition is never opened.
-/
import proofs.«105119_j59390807769620_1_alg».proof.Defs
import proofs.«105119_j59390807769620_1_alg».proof.Proof.Gen.Kernel.Frame
import proofs.«105119_j59390807769620_1_alg».proof.Proof.Gen.KernelIdeal.Frame
import proofs.«105119_j59390807769620_1_alg».proof.Proof.Gen.ReferenceIdeal.Run
import proofs.«105119_j59390807769620_1_alg».proof.Proof.Gen.Pre_finite_inputs
import proofs.«105119_j59390807769620_1_alg».proof.Proof.Tiles
import proofs.«105119_j59390807769620_1_alg».proof.Proof.Head
import proofs.«105119_j59390807769620_1_alg».proof.Proof.RefValue

noncomputable section

open Idealize.ShloMosaic Idealize.ShloMosaic.TcCoe Idealize.SL.Sem

namespace Cert.KernelIdeal.Tiles

open Cert.KernelIdeal Cert.KernelIdeal.Gen Cert.KernelIdeal.Blocks

/-- The kernel's result array as a function of the LAUNCH contents: the network on the reference's aggregation stage
    of the node features, edge lists and edge weights, with the launch's weights and biases. -/
theorem result_of_launch (m : (ℓ : Loc nD τ sig) → Buf (Elt Ideal) ℓ) (c : Dev nD) :
    result m c = Cert.Ffn.ffn
      (Cert.ReferenceIdeal.Read.val_main_v35 (F := Ideal) (m ((c : Thread nD τ).loc main_arg0))
        (m ((c : Thread nD τ).loc main_arg1)) (m ((c : Thread nD τ).loc main_arg2)) (m ((c : Thread nD τ).loc main_arg3)))
      (m ((c : Thread nD τ).loc main_arg4)) (m ((c : Thread nD τ).loc main_arg5))
      (m ((c : Thread nD τ).loc main_arg6)) (m ((c : Thread nD τ).loc main_arg7)) := by
  unfold result
  exact Cert.Ffn.ffn_congr (Cert.KernelIdeal.Head.agg_eq m c) (V_main_arg4 m c) (V_main_arg5 m c) (V_main_arg6 m c)
    (V_main_arg7 m c)

end Cert.KernelIdeal.Tiles

namespace Cert.Proof.Claims

/-- The word-level kernel runs and leaves its arguments as they were: the generated frame. -/
theorem frame_kernel : Cert.frame_Kernel := fun m ρ _ => Cert.Kernel.Gen.frame m ρ

/-- So does the idealized kernel. -/
theorem frame_kernel_ideal : Cert.frame_KernelIdeal := fun m ρ _ => Cert.KernelIdeal.Gen.frame m ρ

/-- The reference is a straight line of host operations: its generated run, the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- From memories agreeing on the arguments both programs end with the network applied to the aggregated features. -/
theorem algebraic : Cert.algebraic_KernelIdeal_ReferenceIdeal := by
  intro m ρ m' ρ' _ hagree
  refine ⟨fun c => Cert.KernelIdeal.Blocks.result m c, Cert.KernelIdeal.Tiles.run m ρ, ?_⟩
  refine (θ_run Cert.ReferenceIdeal.defs _ _).mono (fun _ h c => ⟨?_, (h c).2⟩)
    (Cert.ReferenceIdeal.Value.run (F := Ideal) m' ρ')
  obtain ⟨a0, a1, a2, a3, a4, a5, a6, a7⟩ := hagree c
  refine ((h c).1.trans (Cert.ReferenceIdeal.Read.val_main_v44_eq _ _ _ _ _ _ _ _)).trans ?_
  rw [Cert.ReferenceIdeal.RefValue.result_eq, a0, a1, a2, a3, a4, a5, a6, a7]
  exact (Cert.KernelIdeal.Tiles.result_of_launch m c).symm

end Cert.Proof.Claims

end
-- ==== Proof.lean ====
/-
  The proof of `Cert.Claim`: a graph-convolution layer — a degree-normalised gather, multiply and scatter-add over
  800000 edges, then a two-layer perceptron on each of the 50000 node rows — whose kernel keeps the message passing on
  the host and runs the perceptron as a pipelined region over ten tiles of 5000 rows, against the reference that does
  all of it with host operations.  The modules, in the order they depend on each other:
    Spec      the perceptron on one row and on the whole array (`Ffn.rowOut`, `Ffn.ffn`);
    Payload   the kernel body's stored tile, entry by entry, is `Ffn.rowOut` of the tile's rows;
    Blocks    each window's block at a grid point as rows of its array; what a point stores;
    Tiles     the ten write-backs cover the result array, which ends at `Ffn.ffn` of the arrays the region finds;
    Head      the aggregated features the region finds are the reference's own aggregation stage;
    RefValue  the reference's result is `Ffn.ffn` of that stage;
    Claims    the three frames, `preserves` (nothing was rewritten) and `algebraic`.
-/
import proofs.«105119_j59390807769620_1_alg».proof.Defs
import proofs.«105119_j59390807769620_1_alg».proof.Proof.Gen.Kernel
import proofs.«105119_j59390807769620_1_alg».proof.Proof.Gen.KernelIdeal
import proofs.«105119_j59390807769620_1_alg».proof.Proof.Gen.ReferenceIdeal
import proofs.«105119_j59390807769620_1_alg».proof.Proof.Gen.Pre_finite_inputs
import proofs.«105119_j59390807769620_1_alg».proof.Proof.Claims

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_kernel, Claims.frame_kernel_ideal, Claims.frame_reference, Claims.preserves, Claims.algebraic⟩

end Cert.Proof

end
